-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64x64 .f32) (main_arg9 : FVec F S64 .f32) (main_arg10 : FVec F S64x64 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg10
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  main_v48

def fn_part1 {F : FTy → Type} [FloatOps F] (main_arg5 : FVec F S64x64 .f32) (main_arg6 : FVec F S64 .f32) (main_arg7 : FVec F S64x64 .f32) (main_arg8 : FVec F S64x64 .f32) (main_arg9 : FVec F S64 .f32) (main_arg10 : FVec F S64x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x64 .f32) (main_arg1 : IVec S2x800000 32) (main_arg2 : FVec F S64x64 .f32) (main_arg3 : FVec F S64 .f32) (main_arg4 : FVec F S64x64 .f32) (main_arg5 : FVec F S64x64 .f32) (main_arg6 : FVec F S64 .f32) (main_arg7 : FVec F S64x64 .f32) (main_arg8 : FVec F S64x64 .f32) (main_arg9 : FVec F S64 .f32) (main_arg10 : FVec F S64x64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_arg10 main_v13 main_v16
-- ==== Kernel.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S1x64 : Shape := ⟨2, ![1, 64]⟩
abbrev S5000x64 : Shape := ⟨2, ![5000, 64]⟩

abbrev nBuf : Space → Nat
  | .hbm => 66
  | .vmem => 27
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x64, .f32⟩
  | .hbm, ⟨24, _⟩ => ⟨S_, .f32⟩
  | .hbm, ⟨25, _⟩ => ⟨S50000x64, .f32⟩
  | .hbm, ⟨26, _⟩ => ⟨S800000x1, .i32⟩
  | .hbm, ⟨27, _⟩ => ⟨S50000x64, .f32⟩
  | .hbm, ⟨28, _⟩ => ⟨S64x64, .f32⟩
  | .hbm, ⟨29, _⟩ => ⟨S64x64, .f32⟩
  | .hbm, ⟨30, _⟩ => ⟨S1x64, .f32⟩
  | .hbm, ⟨31, _⟩ => ⟨S50000x64, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x64, .f32⟩
  | .hbm, ⟨41, _⟩ => ⟨S_, .f32⟩
  | .hbm, ⟨42, _⟩ => ⟨S50000x64, .f32⟩
  | .hbm, ⟨43, _⟩ => ⟨S800000x1, .i32⟩
  | .hbm, ⟨44, _⟩ => ⟨S50000x64, .f32⟩
  | .hbm, ⟨45, _⟩ => ⟨S64x64, .f32⟩
  | .hbm, ⟨46, _⟩ => ⟨S64x64, .f32⟩
  | .hbm, ⟨47, _⟩ => ⟨S1x64, .f32⟩
  | .hbm, ⟨48, _⟩ => ⟨S50000x64, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x64, .f32⟩
  | .hbm, ⟨58, _⟩ => ⟨S_, .f32⟩
  | .hbm, ⟨59, _⟩ => ⟨S50000x64, .f32⟩
  | .hbm, ⟨60, _⟩ => ⟨S800000x1, .i32⟩
  | .hbm, ⟨61, _⟩ => ⟨S50000x64, .f32⟩
  | .hbm, ⟨62, _⟩ => ⟨S64x64, .f32⟩
  | .hbm, ⟨63, _⟩ => ⟨S64x64, .f32⟩
  | .hbm, ⟨64, _⟩ => ⟨S1x64, .f32⟩
  | .hbm, ⟨65, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x64, .f32⟩
  | .local _ .vmem, ⟨14, _⟩ => ⟨S1x64, .f32⟩
  | .local _ .vmem, ⟨15, _⟩ => ⟨S64x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S64x64, .f32⟩
  | .local _ .vmem, ⟨23, _⟩ => ⟨S1x64, .f32⟩
  | .local _ .vmem, ⟨24, _⟩ => ⟨S64x64, .f32⟩
  | .local _ .vmem, ⟨25, _⟩ => ⟨S5000x64, .f32⟩
  | .local _ .vmem, ⟨26, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_1 : Ref sig .tc := ⟨.hbm, 32, rfl⟩
abbrev main_v18 : Ref sig .tc := ⟨.hbm, 33, rfl⟩
abbrev main_v19 : Ref sig .tc := ⟨.hbm, 34, rfl⟩
abbrev main_c_2 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_3 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_4 : Ref sig .tc := ⟨.hbm, 49, rfl⟩
abbrev main_v32 : Ref sig .tc := ⟨.hbm, 50, rfl⟩
abbrev main_v33 : Ref sig .tc := ⟨.hbm, 51, rfl⟩
abbrev main_c_5 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_6 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  transposes_S64x64_S64x64_1_0 : S64x64.Transposes [1, 0] S64x64
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S50000x64.size a
  hwx0_5 : ∀ i : grid0.Coords, EltTy.bits .f32 = 32 ∨ (Rect.block (s := S50000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .f32 = 32 ∨ (Rect.block (s := S50000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S50000x64.size a
  hwx2_5 : ∀ i : grid2.Coords, EltTy.bits .f32 = 32 ∨ (Rect.block (s := S50000x64) S5000x64.size (cc2_transform_5 i) (hinb2_5 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v13) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v27) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v41) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v31) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v42) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v44) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v43) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v45) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S1x64 : Shape := ⟨2, ![1, 64]⟩

abbrev nBuf : Space → Nat
  | .hbm => 84
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x64, .f32⟩
  | .hbm, ⟨24, _⟩ => ⟨S_, .f32⟩
  | .hbm, ⟨25, _⟩ => ⟨S50000x64, .f32⟩
  | .hbm, ⟨26, _⟩ => ⟨S800000x1, .i32⟩
  | .hbm, ⟨27, _⟩ => ⟨S50000x64, .f32⟩
  | .hbm, ⟨28, _⟩ => ⟨S64x64, .f32⟩
  | .hbm, ⟨29, _⟩ => ⟨S50000x64, .f32⟩
  | .hbm, ⟨30, _⟩ => ⟨S1x64, .f32⟩
  | .hbm, ⟨31, _⟩ => ⟨S50000x64, .f32⟩
  | .hbm, ⟨32, _⟩ => ⟨S50000x64, .f32⟩
  | .hbm, ⟨33, _⟩ => ⟨S64x64, .f32⟩
  | .hbm, ⟨34, _⟩ => ⟨S50000x64, .f32⟩
  | .hbm, ⟨35, _⟩ => ⟨S50000x64, .f32⟩
  | .hbm, ⟨36, _⟩ => ⟨S_, .f32⟩
  | .hbm, ⟨37, _⟩ => ⟨S50000x64, .f32⟩
  | .hbm, ⟨38, _⟩ => ⟨S50000x64, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x64, .f32⟩
  | .hbm, ⟨48, _⟩ => ⟨S_, .f32⟩
  | .hbm, ⟨49, _⟩ => ⟨S50000x64, .f32⟩
  | .hbm, ⟨50, _⟩ => ⟨S800000x1, .i32⟩
  | .hbm, ⟨51, _⟩ => ⟨S50000x64, .f32⟩
  | .hbm, ⟨52, _⟩ => ⟨S64x64, .f32⟩
  | .hbm, ⟨53, _⟩ => ⟨S50000x64, .f32⟩
  | .hbm, ⟨54, _⟩ => ⟨S1x64, .f32⟩
  | .hbm, ⟨55, _⟩ => ⟨S50000x64, .f32⟩
  | .hbm, ⟨56, _⟩ => ⟨S50000x64, .f32⟩
  | .hbm, ⟨57, _⟩ => ⟨S64x64, .f32⟩
  | .hbm, ⟨58, _⟩ => ⟨S50000x64, .f32⟩
  | .hbm, ⟨59, _⟩ => ⟨S50000x64, .f32⟩
  | .hbm, ⟨60, _⟩ => ⟨S_, .f32⟩
  | .hbm, ⟨61, _⟩ => ⟨S50000x64, .f32⟩
  | .hbm, ⟨62, _⟩ => ⟨S50000x64, .f32⟩
  | .hbm, ⟨63, _⟩ => ⟨S_, .i32⟩
  | .hbm, ⟨64, _⟩ => ⟨S800000, .i32⟩
  | .hbm, ⟨65, _⟩ => ⟨S800000, .i1⟩
  | .hbm, ⟨66, _⟩ => ⟨S_, .i32⟩
  | .hbm, ⟨67, _⟩ => ⟨S800000, .i32⟩
  | .hbm, ⟨68, _⟩ => ⟨S800000, .i32⟩
  | .hbm, ⟨69, _⟩ => ⟨S800000, .i32⟩
  | .hbm, ⟨70, _⟩ => ⟨S800000x1, .i32⟩
  | .hbm, ⟨71, _⟩ => ⟨S800000x64, .f32⟩
  | .hbm, ⟨72, _⟩ => ⟨S_, .f32⟩
  | .hbm, ⟨73, _⟩ => ⟨S50000x64, .f32⟩
  | .hbm, ⟨74, _⟩ => ⟨S800000x1, .i32⟩
  | .hbm, ⟨75, _⟩ => ⟨S50000x64, .f32⟩
  | .hbm, ⟨76, _⟩ => ⟨S64x64, .f32⟩
  | .hbm, ⟨77, _⟩ => ⟨S50000x64, .f32⟩
  | .hbm, ⟨78, _⟩ => ⟨S1x64, .f32⟩
  | .hbm, ⟨79, _⟩ => ⟨S50000x64, .f32⟩
  | .hbm, ⟨80, _⟩ => ⟨S50000x64, .f32⟩
  | .hbm, ⟨81, _⟩ => ⟨S64x64, .f32⟩
  | .hbm, ⟨82, _⟩ => ⟨S50000x64, .f32⟩
  | .hbm, ⟨83, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_call0_cst : Ref sig .tc := ⟨.hbm, 36, rfl⟩
abbrev main_call0_v0 : Ref sig .tc := ⟨.hbm, 37, rfl⟩
abbrev main_v22 : Ref sig .tc := ⟨.hbm, 38, rfl⟩
abbrev main_c_1 : Ref sig .tc := ⟨.hbm, 39, rfl⟩
abbrev main_v23 : Ref sig .tc := ⟨.hbm, 40, rfl⟩
abbrev main_v24 : Ref sig .tc := ⟨.hbm, 41, rfl⟩
abbrev main_c_2 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_3 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_call1_cst : Ref sig .tc := ⟨.hbm, 60, rfl⟩
abbrev main_call1_v0 : Ref sig .tc := ⟨.hbm, 61, rfl⟩
abbrev main_v41 : Ref sig .tc := ⟨.hbm, 62, rfl⟩
abbrev main_c_4 : Ref sig .tc := ⟨.hbm, 63, rfl⟩
abbrev main_v42 : Ref sig .tc := ⟨.hbm, 64, rfl⟩
abbrev main_v43 : Ref sig .tc := ⟨.hbm, 65, rfl⟩
abbrev main_c_5 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_6 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  transposes_S64x64_S64x64_1_0 : S64x64.Transposes [1, 0] S64x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.GraphConvSpec.lean ====
/-
  One graph-convolution layer over the extended reals, as a function of whole arrays.

  A layer takes the aggregated neighbour features `agg` and the node features `x` (both [50000 × 64]), two weight
  matrices already transposed (`wr`, `wo` : [64 × 64], read at (k, column)) and a bias over the 64 output columns, and
  gives at node `p` and column `q`

      (∑ₖ agg[p, k] · wr[k, q]  +  ∑ₖ x[p, k] · wo[k, q])  +  b[q],

  followed, for the hidden layers, by the maximum with zero. The sum of the three terms may be grouped either way:
  addition on the extended reals is commutative and associative, the infinities included, so no finiteness is needed.
-/
import Idealize.ShloMosaic.PureOps.Ideal.Laws
import Idealize.ShloMosaic.Lib.ValueIdx

noncomputable section

namespace Cert.GraphConv

open Idealize.ShloMosaic Idealize.ShloMosaic.ValueIdx

/-- The node-feature arrays: 50000 nodes, 64 features. -/
abbrev Nodes : Shape := ⟨2, ![50000, 64]⟩
/-- A weight matrix. -/
abbrev Weights : Shape := ⟨2, ![64, 64]⟩

/-- The affine part of a layer at (p, q): the aggregated features through `wr`, the node's own features through
    `wo`, and the bias of column q, the two products summed first. -/
def affineLayer (agg x : Nodes.Idx → EReal) (wr wo : Weights.Idx → EReal) (b : Fin 64 → EReal) : Nodes.Idx → EReal :=
  fun i => (∑ k : Fin 64, agg (ix2 (i 0) k) * wr (ix2 k (i 1))) + (∑ k : Fin 64, x (ix2 (i 0) k) * wo (ix2 k (i 1))) + b (i 1)

/-- A hidden layer: the affine part, then the maximum with zero. -/
def hiddenLayer (agg x : Nodes.Idx → EReal) (wr wo : Weights.Idx → EReal) (b : Fin 64 → EReal) : Nodes.Idx → EReal :=
  fun i => max (affineLayer agg x wr wo b i) 0

/-- The same three terms with the bias added before the second product: equal, by commutativity and associativity of
    addition on the extended reals. -/
theorem affineLayer_bias_first (agg x : Nodes.Idx → EReal) (wr wo : Weights.Idx → EReal) (b : Fin 64 → EReal) (i : Nodes.Idx) :
    ((∑ k : Fin 64, agg (ix2 (i 0) k) * wr (ix2 k (i 1))) + b (i 1)) + (∑ k : Fin 64, x (ix2 (i 0) k) * wo (ix2 k (i 1)))
      = affineLayer agg x wr wo b i := by
  unfold affineLayer
  exact add_right_comm _ _ _

end Cert.GraphConv

end
-- ==== Proof.Network.lean ====
/-
  The whole network as one function of the program's arguments.

  Every layer aggregates the current node features over the edges — each edge (src, dst) adds row src of the features
  into row dst of a zero array, a negative src first shifted up by the number of nodes — and then applies the layer of
  the specification to the aggregate and the features, with the layer's two weight matrices transposed and its bias.
  The first two layers are hidden layers (maximum with zero), the last is affine. The aggregation is carried as one
  function of (src, dst, features): both programs spell it with the same host operations, so it is never opened.
-/
import proofs.«180834_j89790586290566_1_alg».proof.Proof.Gen.KernelIdeal
import proofs.«180834_j89790586290566_1_alg».proof.Proof.GraphConvSpec
import Idealize.ShloMosaic.PureOps.Ideal
import Idealize.ShloMosaic.Lib.Pipeline.Value
import Idealize.ShloMosaic.Lib.ValueIdx

noncomputable section

namespace Cert.KernelIdeal.Network

open Cert.KernelIdeal Cert.KernelIdeal.Gen Cert.GraphConv Idealize.ShloMosaic Idealize.ShloMosaic.ValueIdx

/-- The edges' source nodes: row 0 of the edge list. -/
def srcOf (e : (⟨S2x800000, .i32⟩ : BufTy).Contents (Elt Ideal)) : (⟨S800000, .i32⟩ : BufTy).Contents (Elt Ideal) :=
  shapeCast S800000 (extractStridedSlice S1x800000 ![0, 0] e slices_S2x800000_S1x800000_0_0) shapeCasts_S1x800000_S800000

/-- The edges' destination nodes: row 1 of the edge list. -/
def dstOf (e : (⟨S2x800000, .i32⟩ : BufTy).Contents (Elt Ideal)) : (⟨S800000, .i32⟩ : BufTy).Contents (Elt Ideal) :=
  shapeCast S800000 (extractStridedSlice S1x800000 ![1, 0] e slices_S2x800000_S1x800000_1_0) shapeCasts_S1x800000_S800000

/-- The sum over incoming edges: rows of `h` gathered at the sources (a negative source shifted up by 50000) and
    added into a zero array at the destinations. -/
def aggregate (src dst : (⟨S800000, .i32⟩ : BufTy).Contents (Elt Ideal)) (h : (⟨S50000x64, .f32⟩ : BufTy).Contents (Elt Ideal)) :
    (⟨S50000x64, .f32⟩ : BufTy).Contents (Elt Ideal) :=
  Host.scatterAdd scatter_S50000x64_S800000x1_S800000x64_1_0_0_1
    (broadcastInDim S50000x64 ![] bcast_S_S50000x64 (constant (F := Ideal) S_ .f32 0x00000000#32))
    (broadcastInDim S800000x1 ![0] bcast_S800000_S800000x1_0 dst)
    (Host.gather gather_S50000x64_S800000x1_S800000x64_1_0_n_n_0_1_164 h
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32)))
          src)))

/-- A weight matrix transposed: read at (k, column). -/
def transposed (w : (⟨S64x64, .f32⟩ : BufTy).Contents (Elt Ideal)) : (⟨S64x64, .f32⟩ : BufTy).Contents (Elt Ideal) :=
  transpose S64x64 [1, 0] w transposes_S64x64_S64x64_1_0

/-- A bias over the 64 output columns. -/
def biasOf (b : (⟨S64, .f32⟩ : BufTy).Contents (Elt Ideal)) : Fin 64 → EReal := fun q => b (ix1 q)

/-- The bias laid out as one row of 64: its entry (0, q) is the bias at q. -/
theorem bias_row (b : (⟨S64, .f32⟩ : BufTy).Contents (Elt Ideal)) (q : Fin 64) :
    shapeCast S1x64 b shapeCasts_S64_S1x64 (ix2 0 q) = biasOf b q :=
  shapeCast_apply b shapeCasts_S64_S1x64 (ix2 0 q) (ix1 q)
    (by rewrite [Shape.rowMajor_val_two, Shape.rowMajor_val_one]; show q.val = 0 * 64 + q.val; omega)

/-- A hidden layer on the features `h` over the edges `e`. -/
def hiddenOf (e : (⟨S2x800000, .i32⟩ : BufTy).Contents (Elt Ideal)) (h : (⟨S50000x64, .f32⟩ : BufTy).Contents (Elt Ideal))
    (w : (⟨S64x64, .f32⟩ : BufTy).Contents (Elt Ideal)) (b : (⟨S64, .f32⟩ : BufTy).Contents (Elt Ideal))
    (w' : (⟨S64x64, .f32⟩ : BufTy).Contents (Elt Ideal)) : (⟨S50000x64, .f32⟩ : BufTy).Contents (Elt Ideal) :=
  hiddenLayer (aggregate (srcOf e) (dstOf e) h) h (transposed w) (transposed w') (biasOf b)

/-- The last, affine layer on the features `h` over the edges `e`. -/
def outputOf (e : (⟨S2x800000, .i32⟩ : BufTy).Contents (Elt Ideal)) (h : (⟨S50000x64, .f32⟩ : BufTy).Contents (Elt Ideal))
    (w : (⟨S64x64, .f32⟩ : BufTy).Contents (Elt Ideal)) (b : (⟨S64, .f32⟩ : BufTy).Contents (Elt Ideal))
    (w' : (⟨S64x64, .f32⟩ : BufTy).Contents (Elt Ideal)) : (⟨S50000x64, .f32⟩ : BufTy).Contents (Elt Ideal) :=
  affineLayer (aggregate (srcOf e) (dstOf e) h) h (transposed w) (transposed w') (biasOf b)

/-- The network: two hidden layers and the affine one, each on the layer before it. -/
def network (x : (⟨S50000x64, .f32⟩ : BufTy).Contents (Elt Ideal)) (e : (⟨S2x800000, .i32⟩ : BufTy).Contents (Elt Ideal))
    (w0 : (⟨S64x64, .f32⟩ : BufTy).Contents (Elt Ideal)) (b0 : (⟨S64, .f32⟩ : BufTy).Contents (Elt Ideal)) (w0' : (⟨S64x64, .f32⟩ : BufTy).Contents (Elt Ideal))
    (w1 : (⟨S64x64, .f32⟩ : BufTy).Contents (Elt Ideal)) (b1 : (⟨S64, .f32⟩ : BufTy).Contents (Elt Ideal)) (w1' : (⟨S64x64, .f32⟩ : BufTy).Contents (Elt Ideal))
    (w2 : (⟨S64x64, .f32⟩ : BufTy).Contents (Elt Ideal)) (b2 : (⟨S64, .f32⟩ : BufTy).Contents (Elt Ideal)) (w2' : (⟨S64x64, .f32⟩ : BufTy).Contents (Elt Ideal)) :
    (⟨S50000x64, .f32⟩ : BufTy).Contents (Elt Ideal) :=
  outputOf e (hiddenOf e (hiddenOf e x w0 b0 w0') w1 b1 w1') w2 b2 w2'

end Cert.KernelIdeal.Network

end
-- ==== Proof.BoundaryTable.lean ====
/-
  The table of boundary facts of the three-region program: for each stretch of host operations, what it leaves in
  each buffer the next region reads (the aggregate of the current features over the edges, the features themselves,
  the layer's two weight matrices transposed, its bias laid out as one row) and which buffers it carries unchanged
  (the edge list's two rows, the later layers' arguments); and across a region, that every buffer but the region's
  own result array is as before.
-/
import proofs.«180834_j89790586290566_1_alg».proof.Proof.Gen.KernelIdeal.Frame
import proofs.«180834_j89790586290566_1_alg».proof.Proof.Network
import Idealize.ShloMosaic.Lib.StableHlo.Run

set_option maxRecDepth 16384

noncomputable section

namespace Cert.KernelIdeal.BoundaryTable

open Cert.KernelIdeal Cert.KernelIdeal.Gen Cert.KernelIdeal.Network
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The first stretch, from the launch contents -/

/-- The aggregate of the input features over the edges. -/
theorem s0_agg : W1 m ρ c (Proc.devRef .tc main_v13) = aggregate (srcOf (m ((c : Thread nD τ).loc main_arg1))) (dstOf (m ((c : Thread nD τ).loc main_arg1))) (m ((c : Thread nD τ).loc main_arg0)) := by
  show StableHlo.after hostOps0 (W0 m ρ c) (Proc.devRef .tc main_v13) = _
  unfold hostOps0
  after_results <;> rfl
/-- The input features, untouched. -/
theorem s0_x : W1 m ρ c (Proc.devRef .tc main_arg0) = (m ((c : Thread nD τ).loc main_arg0)) := by
  show StableHlo.after hostOps0 (W0 m ρ c) (Proc.devRef .tc main_arg0) = _
  unfold hostOps0
  after_results <;> rfl
theorem s0_w : W1 m ρ c (Proc.devRef .tc main_v14) = transposed (m ((c : Thread nD τ).loc main_arg2)) := by
  show StableHlo.after hostOps0 (W0 m ρ c) (Proc.devRef .tc main_v14) = _
  unfold hostOps0
  after_results <;> rfl
theorem s0_b : W1 m ρ c (Proc.devRef .tc main_v16) = shapeCast S1x64 (m ((c : Thread nD τ).loc main_arg3)) shapeCasts_S64_S1x64 := by
  show StableHlo.after hostOps0 (W0 m ρ c) (Proc.devRef .tc main_v16) = _
  unfold hostOps0
  after_results <;> rfl
theorem s0_w' : W1 m ρ c (Proc.devRef .tc main_v15) = transposed (m ((c : Thread nD τ).loc main_arg4)) := by
  show StableHlo.after hostOps0 (W0 m ρ c) (Proc.devRef .tc main_v15) = _
  unfold hostOps0
  after_results <;> rfl
/-- The edges' sources and destinations, computed once here and read by every later stretch. -/
theorem s0_src : W1 m ρ c (Proc.devRef .tc main_v1) = srcOf (m ((c : Thread nD τ).loc main_arg1)) := by
  show StableHlo.after hostOps0 (W0 m ρ c) (Proc.devRef .tc main_v1) = _
  unfold hostOps0
  after_results <;> rfl
theorem s0_dst : W1 m ρ c (Proc.devRef .tc main_v3) = dstOf (m ((c : Thread nD τ).loc main_arg1)) := by
  show StableHlo.after hostOps0 (W0 m ρ c) (Proc.devRef .tc main_v3) = _
  unfold hostOps0
  after_results <;> rfl
theorem s0_a5 : W1 m ρ c (Proc.devRef .tc main_arg5) = (m ((c : Thread nD τ).loc main_arg5)) := by
  show StableHlo.after hostOps0 (W0 m ρ c) (Proc.devRef .tc main_arg5) = _
  unfold hostOps0
  after_results <;> rfl
theorem s0_a6 : W1 m ρ c (Proc.devRef .tc main_arg6) = (m ((c : Thread nD τ).loc main_arg6)) := by
  show StableHlo.after hostOps0 (W0 m ρ c) (Proc.devRef .tc main_arg6) = _
  unfold hostOps0
  after_results <;> rfl
theorem s0_a7 : W1 m ρ c (Proc.devRef .tc main_arg7) = (m ((c : Thread nD τ).loc main_arg7)) := by
  show StableHlo.after hostOps0 (W0 m ρ c) (Proc.devRef .tc main_arg7) = _
  unfold hostOps0
  after_results <;> rfl
theorem s0_a8 : W1 m ρ c (Proc.devRef .tc main_arg8) = (m ((c : Thread nD τ).loc main_arg8)) := by
  show StableHlo.after hostOps0 (W0 m ρ c) (Proc.devRef .tc main_arg8) = _
  unfold hostOps0
  after_results <;> rfl
theorem s0_a9 : W1 m ρ c (Proc.devRef .tc main_arg9) = (m ((c : Thread nD τ).loc main_arg9)) := by
  show StableHlo.after hostOps0 (W0 m ρ c) (Proc.devRef .tc main_arg9) = _
  unfold hostOps0
  after_results <;> rfl
theorem s0_a10 : W1 m ρ c (Proc.devRef .tc main_arg10) = (m ((c : Thread nD τ).loc main_arg10)) := by
  show StableHlo.after hostOps0 (W0 m ρ c) (Proc.devRef .tc main_arg10) = _
  unfold hostOps0
  after_results <;> rfl

/-! ## Across the first region: only its result array changes -/

theorem k2_src : W2 m ρ c (Proc.devRef .tc main_v1) = srcOf (m ((c : Thread nD τ).loc main_arg1)) := (W2_of_ne m ρ c main_v1 (by decide)).trans (s0_src m ρ c)
theorem k2_dst : W2 m ρ c (Proc.devRef .tc main_v3) = dstOf (m ((c : Thread nD τ).loc main_arg1)) := (W2_of_ne m ρ c main_v3 (by decide)).trans (s0_dst m ρ c)
theorem k2_a5 : W2 m ρ c (Proc.devRef .tc main_arg5) = (m ((c : Thread nD τ).loc main_arg5)) := (W2_of_ne m ρ c main_arg5 (by decide)).trans (s0_a5 m ρ c)
theorem k2_a6 : W2 m ρ c (Proc.devRef .tc main_arg6) = (m ((c : Thread nD τ).loc main_arg6)) := (W2_of_ne m ρ c main_arg6 (by decide)).trans (s0_a6 m ρ c)
theorem k2_a7 : W2 m ρ c (Proc.devRef .tc main_arg7) = (m ((c : Thread nD τ).loc main_arg7)) := (W2_of_ne m ρ c main_arg7 (by decide)).trans (s0_a7 m ρ c)
theorem k2_a8 : W2 m ρ c (Proc.devRef .tc main_arg8) = (m ((c : Thread nD τ).loc main_arg8)) := (W2_of_ne m ρ c main_arg8 (by decide)).trans (s0_a8 m ρ c)
theorem k2_a9 : W2 m ρ c (Proc.devRef .tc main_arg9) = (m ((c : Thread nD τ).loc main_arg9)) := (W2_of_ne m ρ c main_arg9 (by decide)).trans (s0_a9 m ρ c)
theorem k2_a10 : W2 m ρ c (Proc.devRef .tc main_arg10) = (m ((c : Thread nD τ).loc main_arg10)) := (W2_of_ne m ρ c main_arg10 (by decide)).trans (s0_a10 m ρ c)

/-! ## The second stretch, from the first region's exit -/

/-- The aggregate of the first region's result over the edges. -/
theorem s1_agg : W3 m ρ c (Proc.devRef .tc main_v27) = aggregate (W2 m ρ c (Proc.devRef .tc main_v1)) (W2 m ρ c (Proc.devRef .tc main_v3)) (W2 m ρ c (Proc.devRef .tc main_v17)) := by
  show StableHlo.after hostOps1 (W2 m ρ c) (Proc.devRef .tc main_v27) = _
  unfold hostOps1
  after_results <;> rfl
theorem s1_h : W3 m ρ c (Proc.devRef .tc main_v17) = W2 m ρ c (Proc.devRef .tc main_v17) := by
  show StableHlo.after hostOps1 (W2 m ρ c) (Proc.devRef .tc main_v17) = _
  unfold hostOps1
  after_results <;> rfl
theorem s1_w : W3 m ρ c (Proc.devRef .tc main_v28) = transposed (W2 m ρ c (Proc.devRef .tc main_arg5)) := by
  show StableHlo.after hostOps1 (W2 m ρ c) (Proc.devRef .tc main_v28) = _
  unfold hostOps1
  after_results <;> rfl
theorem s1_b : W3 m ρ c (Proc.devRef .tc main_v30) = shapeCast S1x64 (W2 m ρ c (Proc.devRef .tc main_arg6)) shapeCasts_S64_S1x64 := by
  show StableHlo.after hostOps1 (W2 m ρ c) (Proc.devRef .tc main_v30) = _
  unfold hostOps1
  after_results <;> rfl
theorem s1_w' : W3 m ρ c (Proc.devRef .tc main_v29) = transposed (W2 m ρ c (Proc.devRef .tc main_arg7)) := by
  show StableHlo.after hostOps1 (W2 m ρ c) (Proc.devRef .tc main_v29) = _
  unfold hostOps1
  after_results <;> rfl
theorem s1_src : W3 m ρ c (Proc.devRef .tc main_v1) = W2 m ρ c (Proc.devRef .tc main_v1) := by
  show StableHlo.after hostOps1 (W2 m ρ c) (Proc.devRef .tc main_v1) = _
  unfold hostOps1
  after_results <;> rfl
theorem s1_dst : W3 m ρ c (Proc.devRef .tc main_v3) = W2 m ρ c (Proc.devRef .tc main_v3) := by
  show StableHlo.after hostOps1 (W2 m ρ c) (Proc.devRef .tc main_v3) = _
  unfold hostOps1
  after_results <;> rfl
theorem s1_a8 : W3 m ρ c (Proc.devRef .tc main_arg8) = W2 m ρ c (Proc.devRef .tc main_arg8) := by
  show StableHlo.after hostOps1 (W2 m ρ c) (Proc.devRef .tc main_arg8) = _
  unfold hostOps1
  after_results <;> rfl
theorem s1_a9 : W3 m ρ c (Proc.devRef .tc main_arg9) = W2 m ρ c (Proc.devRef .tc main_arg9) := by
  show StableHlo.after hostOps1 (W2 m ρ c) (Proc.devRef .tc main_arg9) = _
  unfold hostOps1
  after_results <;> rfl
theorem s1_a10 : W3 m ρ c (Proc.devRef .tc main_arg10) = W2 m ρ c (Proc.devRef .tc main_arg10) := by
  show StableHlo.after hostOps1 (W2 m ρ c) (Proc.devRef .tc main_arg10) = _
  unfold hostOps1
  after_results <;> rfl

/-! ## Across the second region -/

theorem k4_src : W4 m ρ c (Proc.devRef .tc main_v1) = srcOf (m ((c : Thread nD τ).loc main_arg1)) := (W4_of_ne m ρ c main_v1 (by decide)).trans ((s1_src m ρ c).trans (k2_src m ρ c))
theorem k4_dst : W4 m ρ c (Proc.devRef .tc main_v3) = dstOf (m ((c : Thread nD τ).loc main_arg1)) := (W4_of_ne m ρ c main_v3 (by decide)).trans ((s1_dst m ρ c).trans (k2_dst m ρ c))
theorem k4_a8 : W4 m ρ c (Proc.devRef .tc main_arg8) = (m ((c : Thread nD τ).loc main_arg8)) := (W4_of_ne m ρ c main_arg8 (by decide)).trans ((s1_a8 m ρ c).trans (k2_a8 m ρ c))
theorem k4_a9 : W4 m ρ c (Proc.devRef .tc main_arg9) = (m ((c : Thread nD τ).loc main_arg9)) := (W4_of_ne m ρ c main_arg9 (by decide)).trans ((s1_a9 m ρ c).trans (k2_a9 m ρ c))
theorem k4_a10 : W4 m ρ c (Proc.devRef .tc main_arg10) = (m ((c : Thread nD τ).loc main_arg10)) := (W4_of_ne m ρ c main_arg10 (by decide)).trans ((s1_a10 m ρ c).trans (k2_a10 m ρ c))

/-! ## The last stretch, from the second region's exit -/

/-- The aggregate of the second region's result over the edges. -/
theorem s2_agg : W5 m ρ c (Proc.devRef .tc main_v41) = aggregate (W4 m ρ c (Proc.devRef .tc main_v1)) (W4 m ρ c (Proc.devRef .tc main_v3)) (W4 m ρ c (Proc.devRef .tc main_v31)) := by
  show StableHlo.after hostOps2 (W4 m ρ c) (Proc.devRef .tc main_v41) = _
  unfold hostOps2
  after_results <;> rfl
theorem s2_h : W5 m ρ c (Proc.devRef .tc main_v31) = W4 m ρ c (Proc.devRef .tc main_v31) := by
  show StableHlo.after hostOps2 (W4 m ρ c) (Proc.devRef .tc main_v31) = _
  unfold hostOps2
  after_results <;> rfl
theorem s2_w : W5 m ρ c (Proc.devRef .tc main_v42) = transposed (W4 m ρ c (Proc.devRef .tc main_arg8)) := by
  show StableHlo.after hostOps2 (W4 m ρ c) (Proc.devRef .tc main_v42) = _
  unfold hostOps2
  after_results <;> rfl
theorem s2_b : W5 m ρ c (Proc.devRef .tc main_v44) = shapeCast S1x64 (W4 m ρ c (Proc.devRef .tc main_arg9)) shapeCasts_S64_S1x64 := by
  show StableHlo.after hostOps2 (W4 m ρ c) (Proc.devRef .tc main_v44) = _
  unfold hostOps2
  after_results <;> rfl
theorem s2_w' : W5 m ρ c (Proc.devRef .tc main_v43) = transposed (W4 m ρ c (Proc.devRef .tc main_arg10)) := by
  show StableHlo.after hostOps2 (W4 m ρ c) (Proc.devRef .tc main_v43) = _
  unfold hostOps2
  after_results <;> rfl

end Cert.KernelIdeal.BoundaryTable

end
-- ==== Proof.LibMatmulAt.lean ====
/-
  A matrix product into a zero accumulator, read at one entry over the extended reals.

  For dimension numbers that contract the left operand's second axis with the right operand's first, with no batch
  axis — so that the left operand is read at (row, k) and the right at (k, column) — the entry (p, q) of the product
  of an [A × K] and a [K × B] matrix is `∑ₖ l[p, k] · r[k, q]`. The four facts about where the dimension numbers
  read their operands are hypotheses, so that the lemma serves any printed record of this kind.
-/
import Idealize.ShloMosaic.PureOps.Ideal.Laws
import Idealize.ShloMosaic.Lib.ValueIdx

noncomputable section

namespace Idealize.ShloMosaic.MatmulAt

open Idealize.ShloMosaic Idealize.ShloMosaic.ValueIdx

/-- Entry (p, q) of `l · r` accumulated into zero is the sum over the contracted axis of `l[p, k] · r[k, q]`, for
    dimension numbers `D` whose one contracted axis has extent `K` (`hr`, `hs`) and which read the left operand at
    (row, k) (`hl0`, `hl1`) and the right at (k, column) (`hr0`, `hr1`). -/
theorem matmul_zero_at {A K B : Nat} {φ₁ φ₂ : FTy}
    (D : DotDims (⟨2, ![A, K]⟩ : Shape) (⟨2, ![K, B]⟩ : Shape) (⟨2, ![A, B]⟩ : Shape))
    (hr : D.contr.rank = 1) (hs : D.contr.size ⟨0, by omega⟩ = K)
    (hl0 : ∀ (i : (⟨2, ![A, B]⟩ : Shape).Idx) (q : D.contr.Idx), (D.lhsIdx i q 0).val = (i 0).val)
    (hl1 : ∀ (i : (⟨2, ![A, B]⟩ : Shape).Idx) (q : D.contr.Idx), (D.lhsIdx i q 1).val = (q ⟨0, by omega⟩).val)
    (hr0 : ∀ (i : (⟨2, ![A, B]⟩ : Shape).Idx) (q : D.contr.Idx), (D.rhsIdx i q 0).val = (q ⟨0, by omega⟩).val)
    (hr1 : ∀ (i : (⟨2, ![A, B]⟩ : Shape).Idx) (q : D.contr.Idx), (D.rhsIdx i q 1).val = (i 1).val)
    (prec : Option ContractPrecision) (l : FVec Ideal (⟨2, ![A, K]⟩ : Shape) φ₁) (r : FVec Ideal (⟨2, ![K, B]⟩ : Shape) φ₂)
    (p : Fin A) (q : Fin B) :
    FloatOps.matmul D prec l r (constant (F := Ideal) (⟨2, ![A, B]⟩ : Shape) .f32 0x00000000#32) (ix2 p q)
      = ∑ k : Fin K, l (ix2 p k) * r (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Idealize.ShloMosaic.MatmulAt

end
-- ==== Proof.CombineAt.lean ====
/-
  The kernel body's arithmetic at one entry of its tile.

  Each of the three kernel bodies takes a [5000 × 64] tile of aggregated features, the matching tile of node features,
  two [64 × 64] weight matrices and a [1 × 64] bias row, all as loaded. The narrowing to bf16 is the identity over the
  extended reals, the same-shape casts are the identity, and a matrix product accumulated into zero is the sum over
  the contracted axis; so at row r and column q of the tile the stored value is

      (∑ₖ a[r, k] · wr[k, q]  +  ∑ₖ x[r, k] · wo[k, q])  +  b[0, q],

  under a maximum with zero in the first two bodies and as it stands in the third.
-/
import proofs.«180834_j89790586290566_1_alg».proof.Proof.Gen.KernelIdeal.Skeleton
import proofs.«180834_j89790586290566_1_alg».proof.Proof.LibMatmulAt
import Idealize.ShloMosaic.Lib.Pipeline.Value
import Idealize.ShloMosaic.Lib.ValueIdx
import Idealize.ShloMosaic.PureOps.Ideal.Laws

noncomputable section

namespace Cert.KernelIdeal.CombineAt

open Idealize.ShloMosaic Idealize.ShloMosaic.ValueIdx Cert.KernelIdeal Cert.KernelIdeal.Gen

/-! ## Where the tile's matrix product reads its operands -/

/-- The left operand is read at the output's row. -/
theorem lhs_tile_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- … and at the contracted index along its second axis. -/
theorem lhs_tile_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
/-- The right operand is read at the contracted index along its first axis. -/
theorem rhs_tile_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
/-- … and at the output's column. -/
theorem rhs_tile_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- Entry (r, q) of a tile's product with a weight matrix, accumulated into zero: the sum over the 64 features. -/
theorem tile_matmul_at (l : FVec Ideal S5000x64 .bf16) (w : FVec Ideal S64x64 .bf16) (r : Fin 5000) (q : Fin 64) :
    matmul dot_S5000x64_S64x64_S5000x64_1_0_0_1_n_n none l w (constant (F := Ideal) S5000x64 .f32 0x00000000#32) (ix2 r q)
      = ∑ k : Fin 64, l (ix2 r k) * w (ix2 k q) :=
  MatmulAt.matmul_zero_at dot_S5000x64_S64x64_S5000x64_1_0_0_1_n_n rfl rfl lhs_tile_0 lhs_tile_1 rhs_tile_0 rhs_tile_1 none l w r q

/-- The bias row spread over the tile's rows: entry (r, q) is the row's entry at column q. -/
theorem bias_row_at (b : Vec Ideal S1x64 .f32) (r : Fin 5000) (q : Fin 64) :
    broadcastTo S5000x64 b broadcasts_S1x64_S5000x64 (ix2 r q) = b (ix2 0 q) :=
  broadcastTo_apply b broadcasts_S1x64_S5000x64 (ix2 r q) (ix2 0 q) (fun a => match a with
    | ⟨0, _⟩ => by show 0 = if (1 : Nat) = 1 then 0 else (r : Nat); rw [if_pos rfl]
    | ⟨1, _⟩ => by show (q : Nat) = if (64 : Nat) = 1 then 0 else (q : Nat); rw [if_neg (by decide)])

/-! ## The three bodies -/

/-- The first body at (r, q). -/
theorem body0_at (v0 v3 : Vec Ideal S5000x64 .f32) (v5 v8 : Vec Ideal S64x64 .f32) (v14 : Vec Ideal S1x64 .f32) (r : Fin 5000) (q : Fin 64) :
    k0_pay1 (F := Ideal) v0 v3 v5 v8 v14 (ix2 r q)
      = max ((∑ k : Fin 64, v0 (ix2 r k) * v5 (ix2 k q)) + (∑ k : Fin 64, v3 (ix2 r k) * v8 (ix2 k q)) + v14 (ix2 0 q)) 0 := by
  unfold k0_pay1
  rw [shapeCast_self v0, shapeCast_self v5, shapeCast_self v8, shapeCast_self v14,
    maximumf_apply, addf_apply, addf_apply, tile_matmul_at, tile_matmul_at, bias_row_at, broadcast_apply,
    Ideal.ofBits_def, Ideal.ofBits_zero_f32]
  simp only [truncf_apply]

/-- The second body at (r, q). -/
theorem body1_at (v0 v3 : Vec Ideal S5000x64 .f32) (v6 v9 : Vec Ideal S64x64 .f32) (v15 : Vec Ideal S1x64 .f32) (r : Fin 5000) (q : Fin 64) :
    k1_pay1 (F := Ideal) v0 v3 v6 v9 v15 (ix2 r q)
      = max ((∑ k : Fin 64, v0 (ix2 r k) * v6 (ix2 k q)) + (∑ k : Fin 64, v3 (ix2 r k) * v9 (ix2 k q)) + v15 (ix2 0 q)) 0 := by
  unfold k1_pay1
  rw [shapeCast_self v0, shapeCast_self v3, shapeCast_self v6, shapeCast_self v9, shapeCast_self v15,
    maximumf_apply, addf_apply, addf_apply, tile_matmul_at, tile_matmul_at, bias_row_at, broadcast_apply,
    Ideal.ofBits_def, Ideal.ofBits_zero_f32]
  simp only [truncf_apply]

/-- The third body at (r, q): no maximum. -/
theorem body2_at (v0 v3 : Vec Ideal S5000x64 .f32) (v6 v9 : Vec Ideal S64x64 .f32) (v15 : Vec Ideal S1x64 .f32) (r : Fin 5000) (q : Fin 64) :
    k2_pay1 (F := Ideal) v0 v3 v6 v9 v15 (ix2 r q)
      = (∑ k : Fin 64, v0 (ix2 r k) * v6 (ix2 k q)) + (∑ k : Fin 64, v3 (ix2 r k) * v9 (ix2 k q)) + v15 (ix2 0 q) := by
  unfold k2_pay1
  rw [shapeCast_self v0, shapeCast_self v3, shapeCast_self v6, shapeCast_self v9, shapeCast_self v15,
    addf_apply, addf_apply, tile_matmul_at, tile_matmul_at, bias_row_at]
  simp only [truncf_apply]

end Cert.KernelIdeal.CombineAt

end
-- ==== Proof.Region0.lean ====
/-
  The first region's result array as one function of the arrays the region finds.

  The region runs the layer tile by tile: grid point t works on rows 5000·t … 5000·t + 4999. It reads that tile of
  the aggregated features and of the node features, the two whole weight matrices and the whole bias row, and writes
  back the tile of the result. Entry (r, q) of what point t writes is the hidden layer's value at node 5000·t + r and
  column q of the WHOLE arrays: the tile's rows are those rows of the arrays, and the weights and the bias do not
  move with t. The ten tiles cover the result array — node p lies in tile p / 5000 — so after the region the array is
  the hidden layer of the arrays it found, everywhere.
-/
import proofs.«180834_j89790586290566_1_alg».proof.Proof.Gen.KernelIdeal.Frame
import proofs.«180834_j89790586290566_1_alg».proof.Proof.CombineAt
import proofs.«180834_j89790586290566_1_alg».proof.Proof.GraphConvSpec
import Idealize.ShloMosaic.Lib.Pipeline.Value

set_option maxRecDepth 16384

noncomputable section

namespace Cert.KernelIdeal.Region0

open Cert.KernelIdeal Cert.KernelIdeal.Gen Cert.GraphConv
open Idealize.ShloMosaic Idealize.ShloMosaic.TcCoe Idealize.ShloMosaic.ValueIdx Idealize.SL.Sem
open Idealize.ShloMosaic.Pipeline (Dat Cfg Window)

-- the buffer contents when the region is entered
variable (V : (c : Dev nD) → (b : Ref sig .tc) → Buf (Elt Ideal) ((c : Thread nD τ).loc b))

theorem hz : (![0, 0] : Fin 2 → Nat) = fun _ => 0 := funext fun a => by fin_cases a <;> rfl

/-- Where each window's block sits at grid point t, decided over the ten points: the two feature windows and the
    result window are at row block t, column block 0; the weights and the bias row stay at block (0, 0). -/
theorem idx_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What the body leaves in the result tile, at entry j, from the five blocks it loaded: the one store covers the
    whole tile, and its value there is the layer's arithmetic on the blocks. -/
theorem out_at (x0 x1 : Vec Ideal S5000x64 .f32) (x2 : Vec Ideal S64x64 .f32) (x3 : Vec Ideal S1x64 .f32) (x4 : Vec Ideal S64x64 .f32) (j : S5000x64.Idx) :
    out0_5 (F := Ideal) x0 x1 x2 x3 x4 j
      = max ((∑ k : Fin 64, x0 (ix2 (j 0) k) * x2 (ix2 k (j 1))) + (∑ k : Fin 64, x1 (ix2 (j 0) k) * x4 (ix2 k (j 1))) + x3 (ix2 0 (j 1))) 0 := by
  unfold out0_5
  rw [View.canon_unit_zero hz]
  simp only [View.ld_unit_zero (S := S5000x64) hz, View.ld_unit_zero (S := S64x64) hz, View.ld_unit_zero (S := S1x64) hz]
  rw [eq_ix2 j]
  exact CombineAt.body0_at x0 x1 x2 x4 x3 (j 0) (j 1)

/-- The layer's value of the arrays the region finds: aggregated features, node features, the two transposed weight
    matrices, and the bias read off its one row. -/
def G (c : Dev nD) : S50000x64.Idx → EReal :=
  hiddenLayer (V c (Pipeline.arrRef spec0 0)) (V c (Pipeline.arrRef spec0 1)) (V c (Pipeline.arrRef spec0 2)) (V c (Pipeline.arrRef spec0 4))
    (fun q => V c (Pipeline.arrRef spec0 3) (ix2 0 q))

/-- What grid point t writes back is tile t of `G`: each loaded block, read at the coordinates the arithmetic uses, is
    the array at the matching coordinates of the result's tile (a block's coordinate is index × size + offset). -/
theorem flushed_eq (c : Dev nD) (t : Fin cfg0.N) :
    (dat0 (F := Ideal) V c).flushed 5 t = ((cfg0.win 5).blk t).view.read (Elt Ideal) (G V c) := by
  show (cfg0.win 5).cut (grid0.coords t) ((dat0 (F := Ideal) V c).after 5 t) = _
  rw [after0_5]
  funext j
  show out0_5 (iblk0 V c 0 t) (iblk0 V c 1 t) (iblk0 V c 2 t) (iblk0 V c 3 t) (iblk0 V c 4 t) j = G V c (((cfg0.win 5).blk t).view.emb j)
  refine (out_at (iblk0 V c 0 t) (iblk0 V c 1 t) (iblk0 V c 2 t) (iblk0 V c 3 t) (iblk0 V c 4 t) j).trans ?_
  obtain ⟨e00, e01, e10, e11, e20, e21, e30, e31, e40, e41, e50, e51⟩ := idx_facts t
  have hj0 : (j 0).val < 5000 := (j 0).isLt
  have hj1 : (j 1).val < 64 := (j 1).isLt
  unfold G hiddenLayer affineLayer
  refine congrArg₂ max (congrArg₂ (· + ·) (congrArg₂ (· + ·)
    (Finset.sum_congr rfl fun k _ => congrArg₂ (· * ·) ?_ ?_)
    (Finset.sum_congr rfl fun k _ => congrArg₂ (· * ·) ?_ ?_)) ?_) rfl
  · show V c (Pipeline.arrRef spec0 0) (((cfg0.win 0).blk t).view.emb (ix2 (j 0) k)) = V c (Pipeline.arrRef spec0 0) (ix2 ((((cfg0.win 5).blk t).view.emb j) 0) k)
    refine congrArg (V c (Pipeline.arrRef spec0 0)) (funext fun a => Fin.ext ?_)
    match a with
    | ⟨0, _⟩ => show win0_0.index t (0 : Fin 2) * 5000 + 1 * (j 0).val = win0_5.index t (0 : Fin 2) * 5000 + 1 * (j 0).val; omega
    | ⟨1, _⟩ => show win0_0.index t (1 : Fin 2) * 64 + 1 * k.val = k.val; omega
  · show V c (Pipeline.arrRef spec0 2) (((cfg0.win 2).blk t).view.emb (ix2 k (j 1))) = V c (Pipeline.arrRef spec0 2) (ix2 k ((((cfg0.win 5).blk t).view.emb j) 1))
    refine congrArg (V c (Pipeline.arrRef spec0 2)) (funext fun a => Fin.ext ?_)
    match a with
    | ⟨0, _⟩ => show win0_2.index t (0 : Fin 2) * 64 + 1 * k.val = k.val; omega
    | ⟨1, _⟩ => show win0_2.index t (1 : Fin 2) * 64 + 1 * (j 1).val = win0_5.index t (1 : Fin 2) * 64 + 1 * (j 1).val; omega
  · show V c (Pipeline.arrRef spec0 1) (((cfg0.win 1).blk t).view.emb (ix2 (j 0) k)) = V c (Pipeline.arrRef spec0 1) (ix2 ((((cfg0.win 5).blk t).view.emb j) 0) k)
    refine congrArg (V c (Pipeline.arrRef spec0 1)) (funext fun a => Fin.ext ?_)
    match a with
    | ⟨0, _⟩ => show win0_1.index t (0 : Fin 2) * 5000 + 1 * (j 0).val = win0_5.index t (0 : Fin 2) * 5000 + 1 * (j 0).val; omega
    | ⟨1, _⟩ => show win0_1.index t (1 : Fin 2) * 64 + 1 * k.val = k.val; omega
  · show V c (Pipeline.arrRef spec0 4) (((cfg0.win 4).blk t).view.emb (ix2 k (j 1))) = V c (Pipeline.arrRef spec0 4) (ix2 k ((((cfg0.win 5).blk t).view.emb j) 1))
    refine congrArg (V c (Pipeline.arrRef spec0 4)) (funext fun a => Fin.ext ?_)
    match a with
    | ⟨0, _⟩ => show win0_4.index t (0 : Fin 2) * 64 + 1 * k.val = k.val; omega
    | ⟨1, _⟩ => show win0_4.index t (1 : Fin 2) * 64 + 1 * (j 1).val = win0_5.index t (1 : Fin 2) * 64 + 1 * (j 1).val; omega
  · show V c (Pipeline.arrRef spec0 3) (((cfg0.win 3).blk t).view.emb (ix2 0 (j 1))) = V c (Pipeline.arrRef spec0 3) (ix2 0 ((((cfg0.win 5).blk t).view.emb j) 1))
    refine congrArg (V c (Pipeline.arrRef spec0 3)) (funext fun a => Fin.ext ?_)
    match a with
    | ⟨0, _⟩ => show win0_3.index t (0 : Fin 2) * 1 + 1 * 0 = 0; omega
    | ⟨1, _⟩ => show win0_3.index t (1 : Fin 2) * 64 + 1 * (j 1).val = win0_5.index t (1 : Fin 2) * 64 + 1 * (j 1).val; omega

/-- An index of the result array lies in point t's tile iff each coordinate is in the tile's range on its axis. -/
theorem mem_blk (t : Fin cfg0.N) (i : S50000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v17).slice (win0_5.rect t)).set ↔ _
  rw [View.set_slice_whole, Rect.mem_set_unit]
  exact Iff.rfl

/-- Every node's row is in some point's tile: node p in tile p / 5000, and every point writes its tile back. -/
theorem cover (i : S50000x64.Idx) : ∃ t : Fin cfg0.N, (cfg0.win 5).flush t = true ∧ i ∈ ((cfg0.win 5).blk t).view.set := by
  have hi0 : (i 0).val < 50000 := (i 0).isLt
  have hi1 : (i 1).val < 64 := (i 1).isLt
  have hN : (i 0).val / 5000 < cfg0.N := by show _ < grid0.N; rw [N_0]; omega
  refine ⟨⟨(i 0).val / 5000, hN⟩, flush0_5 _, ?_⟩
  obtain ⟨-, -, -, -, -, -, -, -, -, -, e50, e51⟩ := idx_facts ⟨(i 0).val / 5000, hN⟩
  rw [mem_blk]
  intro a
  match a with
  | ⟨0, _⟩ => show win0_5.index ⟨(i 0).val / 5000, hN⟩ (0 : Fin 2) * 5000 ≤ (i 0).val ∧ (i 0).val < win0_5.index ⟨(i 0).val / 5000, hN⟩ (0 : Fin 2) * 5000 + 5000; rw [e50]; show (i 0).val / 5000 * 5000 ≤ _ ∧ _ < (i 0).val / 5000 * 5000 + 5000; omega
  | ⟨1, _⟩ => show win0_5.index ⟨(i 0).val / 5000, hN⟩ (1 : Fin 2) * 64 ≤ (i 1).val ∧ (i 1).val < win0_5.index ⟨(i 0).val / 5000, hN⟩ (1 : Fin 2) * 64 + 64; rw [e51]; omega

/-- After the region its result array is the hidden layer of the arrays it found. -/
theorem result (c : Dev nD) : (dat0 (F := Ideal) V c).arrAt 5 cfg0.N = G V c :=
  (dat0 (F := Ideal) V c).arrAt_eq_of_cover 5 (G V c) (fun t _ => flushed_eq V c t) (cover)

end Cert.KernelIdeal.Region0

end
-- ==== Proof.Region1.lean ====
/-
  The second region's result array as one function of the arrays the region finds.

  The region runs the layer tile by tile: grid point t works on rows 5000·t … 5000·t + 4999. It reads that tile of
  the aggregated features and of the node features, the two whole weight matrices and the whole bias row, and writes
  back the tile of the result. Entry (r, q) of what point t writes is the hidden layer's value at node 5000·t + r and
  column q of the WHOLE arrays: the tile's rows are those rows of the arrays, and the weights and the bias do not
  move with t. The ten tiles cover the result array — node p lies in tile p / 5000 — so after the region the array is
  the hidden layer of the arrays it found, everywhere.
-/
import proofs.«180834_j89790586290566_1_alg».proof.Proof.Gen.KernelIdeal.Frame
import proofs.«180834_j89790586290566_1_alg».proof.Proof.CombineAt
import proofs.«180834_j89790586290566_1_alg».proof.Proof.GraphConvSpec
import Idealize.ShloMosaic.Lib.Pipeline.Value

set_option maxRecDepth 16384

noncomputable section

namespace Cert.KernelIdeal.Region1

open Cert.KernelIdeal Cert.KernelIdeal.Gen Cert.GraphConv
open Idealize.ShloMosaic Idealize.ShloMosaic.TcCoe Idealize.ShloMosaic.ValueIdx Idealize.SL.Sem
open Idealize.ShloMosaic.Pipeline (Dat Cfg Window)

-- the buffer contents when the region is entered
variable (V : (c : Dev nD) → (b : Ref sig .tc) → Buf (Elt Ideal) ((c : Thread nD τ).loc b))

theorem hz : (![0, 0] : Fin 2 → Nat) = fun _ => 0 := funext fun a => by fin_cases a <;> rfl

/-- Where each window's block sits at grid point t, decided over the ten points: the two feature windows and the
    result window are at row block t, column block 0; the weights and the bias row stay at block (0, 0). -/
theorem idx_facts : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What the body leaves in the result tile, at entry j, from the five blocks it loaded: the one store covers the
    whole tile, and its value there is the layer's arithmetic on the blocks. -/
theorem out_at (x0 x1 : Vec Ideal S5000x64 .f32) (x2 : Vec Ideal S64x64 .f32) (x3 : Vec Ideal S1x64 .f32) (x4 : Vec Ideal S64x64 .f32) (j : S5000x64.Idx) :
    out1_5 (F := Ideal) x0 x1 x2 x3 x4 j
      = max ((∑ k : Fin 64, x0 (ix2 (j 0) k) * x2 (ix2 k (j 1))) + (∑ k : Fin 64, x1 (ix2 (j 0) k) * x4 (ix2 k (j 1))) + x3 (ix2 0 (j 1))) 0 := by
  unfold out1_5
  rw [View.canon_unit_zero hz]
  simp only [View.ld_unit_zero (S := S5000x64) hz, View.ld_unit_zero (S := S64x64) hz, View.ld_unit_zero (S := S1x64) hz]
  rw [eq_ix2 j]
  exact CombineAt.body1_at x0 x1 x2 x4 x3 (j 0) (j 1)

/-- The layer's value of the arrays the region finds: aggregated features, node features, the two transposed weight
    matrices, and the bias read off its one row. -/
def G (c : Dev nD) : S50000x64.Idx → EReal :=
  hiddenLayer (V c (Pipeline.arrRef spec1 0)) (V c (Pipeline.arrRef spec1 1)) (V c (Pipeline.arrRef spec1 2)) (V c (Pipeline.arrRef spec1 4))
    (fun q => V c (Pipeline.arrRef spec1 3) (ix2 0 q))

/-- What grid point t writes back is tile t of `G`: each loaded block, read at the coordinates the arithmetic uses, is
    the array at the matching coordinates of the result's tile (a block's coordinate is index × size + offset). -/
theorem flushed_eq (c : Dev nD) (t : Fin cfg1.N) :
    (dat1 (F := Ideal) V c).flushed 5 t = ((cfg1.win 5).blk t).view.read (Elt Ideal) (G V c) := by
  show (cfg1.win 5).cut (grid1.coords t) ((dat1 (F := Ideal) V c).after 5 t) = _
  rw [after1_5]
  funext j
  show out1_5 (iblk1 V c 0 t) (iblk1 V c 1 t) (iblk1 V c 2 t) (iblk1 V c 3 t) (iblk1 V c 4 t) j = G V c (((cfg1.win 5).blk t).view.emb j)
  refine (out_at (iblk1 V c 0 t) (iblk1 V c 1 t) (iblk1 V c 2 t) (iblk1 V c 3 t) (iblk1 V c 4 t) j).trans ?_
  obtain ⟨e00, e01, e10, e11, e20, e21, e30, e31, e40, e41, e50, e51⟩ := idx_facts t
  have hj0 : (j 0).val < 5000 := (j 0).isLt
  have hj1 : (j 1).val < 64 := (j 1).isLt
  unfold G hiddenLayer affineLayer
  refine congrArg₂ max (congrArg₂ (· + ·) (congrArg₂ (· + ·)
    (Finset.sum_congr rfl fun k _ => congrArg₂ (· * ·) ?_ ?_)
    (Finset.sum_congr rfl fun k _ => congrArg₂ (· * ·) ?_ ?_)) ?_) rfl
  · show V c (Pipeline.arrRef spec1 0) (((cfg1.win 0).blk t).view.emb (ix2 (j 0) k)) = V c (Pipeline.arrRef spec1 0) (ix2 ((((cfg1.win 5).blk t).view.emb j) 0) k)
    refine congrArg (V c (Pipeline.arrRef spec1 0)) (funext fun a => Fin.ext ?_)
    match a with
    | ⟨0, _⟩ => show win1_0.index t (0 : Fin 2) * 5000 + 1 * (j 0).val = win1_5.index t (0 : Fin 2) * 5000 + 1 * (j 0).val; omega
    | ⟨1, _⟩ => show win1_0.index t (1 : Fin 2) * 64 + 1 * k.val = k.val; omega
  · show V c (Pipeline.arrRef spec1 2) (((cfg1.win 2).blk t).view.emb (ix2 k (j 1))) = V c (Pipeline.arrRef spec1 2) (ix2 k ((((cfg1.win 5).blk t).view.emb j) 1))
    refine congrArg (V c (Pipeline.arrRef spec1 2)) (funext fun a => Fin.ext ?_)
    match a with
    | ⟨0, _⟩ => show win1_2.index t (0 : Fin 2) * 64 + 1 * k.val = k.val; omega
    | ⟨1, _⟩ => show win1_2.index t (1 : Fin 2) * 64 + 1 * (j 1).val = win1_5.index t (1 : Fin 2) * 64 + 1 * (j 1).val; omega
  · show V c (Pipeline.arrRef spec1 1) (((cfg1.win 1).blk t).view.emb (ix2 (j 0) k)) = V c (Pipeline.arrRef spec1 1) (ix2 ((((cfg1.win 5).blk t).view.emb j) 0) k)
    refine congrArg (V c (Pipeline.arrRef spec1 1)) (funext fun a => Fin.ext ?_)
    match a with
    | ⟨0, _⟩ => show win1_1.index t (0 : Fin 2) * 5000 + 1 * (j 0).val = win1_5.index t (0 : Fin 2) * 5000 + 1 * (j 0).val; omega
    | ⟨1, _⟩ => show win1_1.index t (1 : Fin 2) * 64 + 1 * k.val = k.val; omega
  · show V c (Pipeline.arrRef spec1 4) (((cfg1.win 4).blk t).view.emb (ix2 k (j 1))) = V c (Pipeline.arrRef spec1 4) (ix2 k ((((cfg1.win 5).blk t).view.emb j) 1))
    refine congrArg (V c (Pipeline.arrRef spec1 4)) (funext fun a => Fin.ext ?_)
    match a with
    | ⟨0, _⟩ => show win1_4.index t (0 : Fin 2) * 64 + 1 * k.val = k.val; omega
    | ⟨1, _⟩ => show win1_4.index t (1 : Fin 2) * 64 + 1 * (j 1).val = win1_5.index t (1 : Fin 2) * 64 + 1 * (j 1).val; omega
  · show V c (Pipeline.arrRef spec1 3) (((cfg1.win 3).blk t).view.emb (ix2 0 (j 1))) = V c (Pipeline.arrRef spec1 3) (ix2 0 ((((cfg1.win 5).blk t).view.emb j) 1))
    refine congrArg (V c (Pipeline.arrRef spec1 3)) (funext fun a => Fin.ext ?_)
    match a with
    | ⟨0, _⟩ => show win1_3.index t (0 : Fin 2) * 1 + 1 * 0 = 0; omega
    | ⟨1, _⟩ => show win1_3.index t (1 : Fin 2) * 64 + 1 * (j 1).val = win1_5.index t (1 : Fin 2) * 64 + 1 * (j 1).val; omega

/-- An index of the result array lies in point t's tile iff each coordinate is in the tile's range on its axis. -/
theorem mem_blk (t : Fin cfg1.N) (i : S50000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v31).slice (win1_5.rect t)).set ↔ _
  rw [View.set_slice_whole, Rect.mem_set_unit]
  exact Iff.rfl

/-- Every node's row is in some point's tile: node p in tile p / 5000, and every point writes its tile back. -/
theorem cover (i : S50000x64.Idx) : ∃ t : Fin cfg1.N, (cfg1.win 5).flush t = true ∧ i ∈ ((cfg1.win 5).blk t).view.set := by
  have hi0 : (i 0).val < 50000 := (i 0).isLt
  have hi1 : (i 1).val < 64 := (i 1).isLt
  have hN : (i 0).val / 5000 < cfg1.N := by show _ < grid1.N; rw [N_1]; omega
  refine ⟨⟨(i 0).val / 5000, hN⟩, flush1_5 _, ?_⟩
  obtain ⟨-, -, -, -, -, -, -, -, -, -, e50, e51⟩ := idx_facts ⟨(i 0).val / 5000, hN⟩
  rw [mem_blk]
  intro a
  match a with
  | ⟨0, _⟩ => show win1_5.index ⟨(i 0).val / 5000, hN⟩ (0 : Fin 2) * 5000 ≤ (i 0).val ∧ (i 0).val < win1_5.index ⟨(i 0).val / 5000, hN⟩ (0 : Fin 2) * 5000 + 5000; rw [e50]; show (i 0).val / 5000 * 5000 ≤ _ ∧ _ < (i 0).val / 5000 * 5000 + 5000; omega
  | ⟨1, _⟩ => show win1_5.index ⟨(i 0).val / 5000, hN⟩ (1 : Fin 2) * 64 ≤ (i 1).val ∧ (i 1).val < win1_5.index ⟨(i 0).val / 5000, hN⟩ (1 : Fin 2) * 64 + 64; rw [e51]; omega

/-- After the region its result array is the hidden layer of the arrays it found. -/
theorem result (c : Dev nD) : (dat1 (F := Ideal) V c).arrAt 5 cfg1.N = G V c :=
  (dat1 (F := Ideal) V c).arrAt_eq_of_cover 5 (G V c) (fun t _ => flushed_eq V c t) (cover)

end Cert.KernelIdeal.Region1

end
-- ==== Proof.Region2.lean ====
/-
  The last region's result array as one function of the arrays the region finds.

  The last layer has no activation: its body stores the affine part as it stands. Otherwise the region runs as the
  two before it, tile by tile: grid point t works on rows 5000·t … 5000·t + 4999 of the aggregated features and of
  the node features, with the two whole weight matrices and the whole bias row, and writes back the tile of the
  result. Entry (r, q) of what point t writes is the affine layer's value at node 5000·t + r and column q of the
  WHOLE arrays, and the ten tiles cover the result array — node p lies in tile p / 5000 — so after the region the
  array is the affine layer of the arrays it found, everywhere.
-/
import proofs.«180834_j89790586290566_1_alg».proof.Proof.Gen.KernelIdeal.Frame
import proofs.«180834_j89790586290566_1_alg».proof.Proof.CombineAt
import proofs.«180834_j89790586290566_1_alg».proof.Proof.GraphConvSpec
import Idealize.ShloMosaic.Lib.Pipeline.Value

set_option maxRecDepth 16384

noncomputable section

namespace Cert.KernelIdeal.Region2

open Cert.KernelIdeal Cert.KernelIdeal.Gen Cert.GraphConv
open Idealize.ShloMosaic Idealize.ShloMosaic.TcCoe Idealize.ShloMosaic.ValueIdx Idealize.SL.Sem
open Idealize.ShloMosaic.Pipeline (Dat Cfg Window)

-- the buffer contents when the region is entered
variable (V : (c : Dev nD) → (b : Ref sig .tc) → Buf (Elt Ideal) ((c : Thread nD τ).loc b))

theorem hz : (![0, 0] : Fin 2 → Nat) = fun _ => 0 := funext fun a => by fin_cases a <;> rfl

/-- Where each window's block sits at grid point t, decided over the ten points: the two feature windows and the
    result window are at row block t, column block 0; the weights and the bias row stay at block (0, 0). -/
theorem idx_facts : ∀ t : Fin cfg2.N,
    win2_0.index t (0 : Fin 2) = win2_5.index t (0 : Fin 2) ∧ win2_0.index t (1 : Fin 2) = 0
    ∧ win2_1.index t (0 : Fin 2) = win2_5.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- What the body leaves in the result tile, at entry j, from the five blocks it loaded: the one store covers the
    whole tile, and its value there is the affine part of the layer on the blocks, with no maximum. -/
theorem out_at (x0 x1 : Vec Ideal S5000x64 .f32) (x2 : Vec Ideal S64x64 .f32) (x3 : Vec Ideal S1x64 .f32) (x4 : Vec Ideal S64x64 .f32) (j : S5000x64.Idx) :
    out2_5 (F := Ideal) x0 x1 x2 x3 x4 j
      = (∑ k : Fin 64, x0 (ix2 (j 0) k) * x2 (ix2 k (j 1))) + (∑ k : Fin 64, x1 (ix2 (j 0) k) * x4 (ix2 k (j 1))) + x3 (ix2 0 (j 1)) := by
  unfold out2_5
  rw [View.canon_unit_zero hz]
  simp only [View.ld_unit_zero (S := S5000x64) hz, View.ld_unit_zero (S := S64x64) hz, View.ld_unit_zero (S := S1x64) hz]
  rw [eq_ix2 j]
  exact CombineAt.body2_at x0 x1 x2 x4 x3 (j 0) (j 1)

/-- The affine layer's value of the arrays the region finds: aggregated features, node features, the two transposed
    weight matrices, and the bias read off its one row. -/
def G (c : Dev nD) : S50000x64.Idx → EReal :=
  affineLayer (V c (Pipeline.arrRef spec2 0)) (V c (Pipeline.arrRef spec2 1)) (V c (Pipeline.arrRef spec2 2)) (V c (Pipeline.arrRef spec2 4))
    (fun q => V c (Pipeline.arrRef spec2 3) (ix2 0 q))

/-- What grid point t writes back is tile t of `G`: each loaded block, read at the coordinates the arithmetic uses, is
    the array at the matching coordinates of the result's tile (a block's coordinate is index × size + offset). -/
theorem flushed_eq (c : Dev nD) (t : Fin cfg2.N) :
    (dat2 (F := Ideal) V c).flushed 5 t = ((cfg2.win 5).blk t).view.read (Elt Ideal) (G V c) := by
  show (cfg2.win 5).cut (grid2.coords t) ((dat2 (F := Ideal) V c).after 5 t) = _
  rw [after2_5]
  funext j
  show out2_5 (iblk2 V c 0 t) (iblk2 V c 1 t) (iblk2 V c 2 t) (iblk2 V c 3 t) (iblk2 V c 4 t) j = G V c (((cfg2.win 5).blk t).view.emb j)
  refine (out_at (iblk2 V c 0 t) (iblk2 V c 1 t) (iblk2 V c 2 t) (iblk2 V c 3 t) (iblk2 V c 4 t) j).trans ?_
  obtain ⟨e00, e01, e10, e11, e20, e21, e30, e31, e40, e41, e50, e51⟩ := idx_facts t
  have hj0 : (j 0).val < 5000 := (j 0).isLt
  have hj1 : (j 1).val < 64 := (j 1).isLt
  unfold G affineLayer
  refine congrArg₂ (· + ·) (congrArg₂ (· + ·)
    (Finset.sum_congr rfl fun k _ => congrArg₂ (· * ·) ?_ ?_)
    (Finset.sum_congr rfl fun k _ => congrArg₂ (· * ·) ?_ ?_)) ?_
  · show V c (Pipeline.arrRef spec2 0) (((cfg2.win 0).blk t).view.emb (ix2 (j 0) k)) = V c (Pipeline.arrRef spec2 0) (ix2 ((((cfg2.win 5).blk t).view.emb j) 0) k)
    refine congrArg (V c (Pipeline.arrRef spec2 0)) (funext fun a => Fin.ext ?_)
    match a with
    | ⟨0, _⟩ => show win2_0.index t (0 : Fin 2) * 5000 + 1 * (j 0).val = win2_5.index t (0 : Fin 2) * 5000 + 1 * (j 0).val; omega
    | ⟨1, _⟩ => show win2_0.index t (1 : Fin 2) * 64 + 1 * k.val = k.val; omega
  · show V c (Pipeline.arrRef spec2 2) (((cfg2.win 2).blk t).view.emb (ix2 k (j 1))) = V c (Pipeline.arrRef spec2 2) (ix2 k ((((cfg2.win 5).blk t).view.emb j) 1))
    refine congrArg (V c (Pipeline.arrRef spec2 2)) (funext fun a => Fin.ext ?_)
    match a with
    | ⟨0, _⟩ => show win2_2.index t (0 : Fin 2) * 64 + 1 * k.val = k.val; omega
    | ⟨1, _⟩ => show win2_2.index t (1 : Fin 2) * 64 + 1 * (j 1).val = win2_5.index t (1 : Fin 2) * 64 + 1 * (j 1).val; omega
  · show V c (Pipeline.arrRef spec2 1) (((cfg2.win 1).blk t).view.emb (ix2 (j 0) k)) = V c (Pipeline.arrRef spec2 1) (ix2 ((((cfg2.win 5).blk t).view.emb j) 0) k)
    refine congrArg (V c (Pipeline.arrRef spec2 1)) (funext fun a => Fin.ext ?_)
    match a with
    | ⟨0, _⟩ => show win2_1.index t (0 : Fin 2) * 5000 + 1 * (j 0).val = win2_5.index t (0 : Fin 2) * 5000 + 1 * (j 0).val; omega
    | ⟨1, _⟩ => show win2_1.index t (1 : Fin 2) * 64 + 1 * k.val = k.val; omega
  · show V c (Pipeline.arrRef spec2 4) (((cfg2.win 4).blk t).view.emb (ix2 k (j 1))) = V c (Pipeline.arrRef spec2 4) (ix2 k ((((cfg2.win 5).blk t).view.emb j) 1))
    refine congrArg (V c (Pipeline.arrRef spec2 4)) (funext fun a => Fin.ext ?_)
    match a with
    | ⟨0, _⟩ => show win2_4.index t (0 : Fin 2) * 64 + 1 * k.val = k.val; omega
    | ⟨1, _⟩ => show win2_4.index t (1 : Fin 2) * 64 + 1 * (j 1).val = win2_5.index t (1 : Fin 2) * 64 + 1 * (j 1).val; omega
  · show V c (Pipeline.arrRef spec2 3) (((cfg2.win 3).blk t).view.emb (ix2 0 (j 1))) = V c (Pipeline.arrRef spec2 3) (ix2 0 ((((cfg2.win 5).blk t).view.emb j) 1))
    refine congrArg (V c (Pipeline.arrRef spec2 3)) (funext fun a => Fin.ext ?_)
    match a with
    | ⟨0, _⟩ => show win2_3.index t (0 : Fin 2) * 1 + 1 * 0 = 0; omega
    | ⟨1, _⟩ => show win2_3.index t (1 : Fin 2) * 64 + 1 * (j 1).val = win2_5.index t (1 : Fin 2) * 64 + 1 * (j 1).val; omega

/-- An index of the result array lies in point t's tile iff each coordinate is in the tile's range on its axis. -/
theorem mem_blk (t : Fin cfg2.N) (i : S50000x64.Idx) :
    i ∈ ((cfg2.win 5).blk t).view.set ↔ ∀ a : Fin 2, win2_5.index t a * S5000x64.size a ≤ (i a).val ∧ (i a).val < win2_5.index t a * S5000x64.size a + S5000x64.size a := by
  show i ∈ ((View.whole main_v45).slice (win2_5.rect t)).set ↔ _
  rw [View.set_slice_whole, Rect.mem_set_unit]
  exact Iff.rfl

/-- Every node's row is in some point's tile: node p in tile p / 5000, and every point writes its tile back. -/
theorem cover (i : S50000x64.Idx) : ∃ t : Fin cfg2.N, (cfg2.win 5).flush t = true ∧ i ∈ ((cfg2.win 5).blk t).view.set := by
  have hi0 : (i 0).val < 50000 := (i 0).isLt
  have hi1 : (i 1).val < 64 := (i 1).isLt
  have hN : (i 0).val / 5000 < cfg2.N := by show _ < grid2.N; rw [N_2]; omega
  refine ⟨⟨(i 0).val / 5000, hN⟩, flush2_5 _, ?_⟩
  obtain ⟨-, -, -, -, -, -, -, -, -, -, e50, e51⟩ := idx_facts ⟨(i 0).val / 5000, hN⟩
  rw [mem_blk]
  intro a
  match a with
  | ⟨0, _⟩ => show win2_5.index ⟨(i 0).val / 5000, hN⟩ (0 : Fin 2) * 5000 ≤ (i 0).val ∧ (i 0).val < win2_5.index ⟨(i 0).val / 5000, hN⟩ (0 : Fin 2) * 5000 + 5000; rw [e50]; show (i 0).val / 5000 * 5000 ≤ _ ∧ _ < (i 0).val / 5000 * 5000 + 5000; omega
  | ⟨1, _⟩ => show win2_5.index ⟨(i 0).val / 5000, hN⟩ (1 : Fin 2) * 64 ≤ (i 1).val ∧ (i 1).val < win2_5.index ⟨(i 0).val / 5000, hN⟩ (1 : Fin 2) * 64 + 64; rw [e51]; omega

/-- After the region its result array is the affine layer of the arrays it found. -/
theorem result (c : Dev nD) : (dat2 (F := Ideal) V c).arrAt 5 cfg2.N = G V c :=
  (dat2 (F := Ideal) V c).arrAt_eq_of_cover 5 (G V c) (fun t _ => flushed_eq V c t) (cover)

end Cert.KernelIdeal.Region2

end
-- ==== Proof.Boundaries.lean ====
/-
  The kernel program's result as the network of its arguments.

  The program is three regions between stretches of host operations. Each stretch prepares what the next region
  reads — the aggregate of the current features over the edges, the layer's two weight matrices transposed, its bias
  laid out as one row — and a region changes only its own result array (the table of those facts is its own module).
  A region leaves in its result array the layer of the arrays it found. So the first region leaves the first hidden
  layer of the arguments; the second finds that as its features, and its aggregate as its first window, and leaves
  the second hidden layer on top of it; the last leaves the affine layer on top of that: the network.
-/
import proofs.«180834_j89790586290566_1_alg».proof.Proof.BoundaryTable
import proofs.«180834_j89790586290566_1_alg».proof.Proof.Region0
import proofs.«180834_j89790586290566_1_alg».proof.Proof.Region1
import proofs.«180834_j89790586290566_1_alg».proof.Proof.Region2

set_option maxRecDepth 16384

noncomputable section

namespace Cert.KernelIdeal.Boundaries

open Cert.KernelIdeal Cert.KernelIdeal.Gen Cert.KernelIdeal.Network Cert.KernelIdeal.BoundaryTable Cert.GraphConv
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- The bias as a region reads it, off its one row, is the bias. -/
theorem row_eq (b : (⟨S64, .f32⟩ : BufTy).Contents (Elt Ideal)) :
    (fun q : Fin 64 => shapeCast S1x64 b shapeCasts_S64_S1x64 (ix2 0 q)) = biasOf b := funext fun q => bias_row b q

/-- THE FIRST REGION leaves the first hidden layer of the arguments: it finds the aggregate of the input features,
    the input features, the first layer's transposed weights and its bias row, as the first stretch left them. -/
theorem hidden1 : W2 m ρ c (Proc.devRef .tc main_v17)
    = hiddenOf (m ((c : Thread nD τ).loc main_arg1)) (m ((c : Thread nD τ).loc main_arg0)) (m ((c : Thread nD τ).loc main_arg2))
        (m ((c : Thread nD τ).loc main_arg3)) (m ((c : Thread nD τ).loc main_arg4)) := by
  refine (W2_arr m ρ c 5).trans ((Region0.result (V1 m ρ) c).trans ?_)
  show hiddenLayer (W1 m ρ c (Proc.devRef .tc main_v13)) (W1 m ρ c (Proc.devRef .tc main_arg0)) (W1 m ρ c (Proc.devRef .tc main_v14))
    (W1 m ρ c (Proc.devRef .tc main_v15)) (fun q => W1 m ρ c (Proc.devRef .tc main_v16) (ix2 0 q)) = _
  rw [s0_agg, s0_x, s0_w, s0_w', s0_b, row_eq]
  rfl

/-- THE SECOND REGION leaves the second hidden layer on the first: its features are the first region's result, its
    first window that result's aggregate over the same edges, its weights and bias the second layer's. -/
theorem hidden2 : W4 m ρ c (Proc.devRef .tc main_v31)
    = hiddenOf (m ((c : Thread nD τ).loc main_arg1))
        (hiddenOf (m ((c : Thread nD τ).loc main_arg1)) (m ((c : Thread nD τ).loc main_arg0)) (m ((c : Thread nD τ).loc main_arg2))
          (m ((c : Thread nD τ).loc main_arg3)) (m ((c : Thread nD τ).loc main_arg4)))
        (m ((c : Thread nD τ).loc main_arg5)) (m ((c : Thread nD τ).loc main_arg6)) (m ((c : Thread nD τ).loc main_arg7)) := by
  refine (W4_arr m ρ c 5).trans ((Region1.result (V3 m ρ) c).trans ?_)
  show hiddenLayer (W3 m ρ c (Proc.devRef .tc main_v27)) (W3 m ρ c (Proc.devRef .tc main_v17)) (W3 m ρ c (Proc.devRef .tc main_v28))
    (W3 m ρ c (Proc.devRef .tc main_v29)) (fun q => W3 m ρ c (Proc.devRef .tc main_v30) (ix2 0 q)) = _
  rw [s1_agg, s1_h, s1_w, s1_w', s1_b, k2_src, k2_dst, k2_a5, k2_a6, k2_a7, hidden1, row_eq]
  rfl

/-- THE LAST REGION leaves the network of the arguments in the program's result array: the affine layer on the
    second region's result. -/
theorem result : W6 m ρ c (Proc.devRef .tc main_v45)
    = network (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) := by
  refine (W6_arr m ρ c 5).trans ((Region2.result (V5 m ρ) c).trans ?_)
  show affineLayer (W5 m ρ c (Proc.devRef .tc main_v41)) (W5 m ρ c (Proc.devRef .tc main_v31)) (W5 m ρ c (Proc.devRef .tc main_v42))
    (W5 m ρ c (Proc.devRef .tc main_v43)) (fun q => W5 m ρ c (Proc.devRef .tc main_v44) (ix2 0 q)) = _
  rw [s2_agg, s2_h, s2_w, s2_w', s2_b, k4_src, k4_dst, k4_a8, k4_a9, k4_a10, hidden2, row_eq]
  rfl

end Cert.KernelIdeal.Boundaries

end
-- ==== Proof.RefLayers.lean ====
/-
  The reference program's result as the network of its arguments.

  The reference computes each layer with whole-array host operations: the aggregate of the current features over
  the edges, its product with one transposed weight matrix, the bias spread over the rows and added, then the product
  of the features with the other transposed weight matrix added, and for the first two layers the maximum with zero.
  Read at node p and column q this is  (∑ₖ agg[p, k] · wr[k, q] + b[q]) + ∑ₖ h[p, k] · wo[k, q],  the layer of the
  specification with the bias added before the second product: the same value, since addition on the extended reals
  is commutative and associative. The aggregation and the transposes are spelt with the same host operations as in the
  network's definition, so those stages are the network's by unfolding names only.
-/
import proofs.«180834_j89790586290566_1_alg».proof.Proof.Gen.ReferenceIdeal.Read
import proofs.«180834_j89790586290566_1_alg».proof.Proof.Network
import proofs.«180834_j89790586290566_1_alg».proof.Proof.GraphConvSpec

noncomputable section

namespace Cert.ReferenceIdeal.Layers

open Cert.ReferenceIdeal Cert.ReferenceIdeal.Read Cert.GraphConv
open Idealize.ShloMosaic Idealize.ShloMosaic.ValueIdx
open Cert.KernelIdeal.Network (aggregate srcOf dstOf transposed biasOf hiddenOf outputOf network)

/-! ## Where each product and each bias broadcast reads its operands -/

theorem lidx15 (i : S50000x64.Idx) (k : Fin 64) : lidx_main_v15 i k = ix2 (i 0) k :=
  funext fun a => Fin.ext (by match a with | ⟨0, _⟩ => rfl | ⟨1, _⟩ => rfl)
theorem ridx15 (i : S50000x64.Idx) (k : Fin 64) : ridx_main_v15 i k = ix2 k (i 1) :=
  funext fun a => Fin.ext (by match a with | ⟨0, _⟩ => rfl | ⟨1, _⟩ => rfl)
theorem lidx20 (i : S50000x64.Idx) (k : Fin 64) : lidx_main_v20 i k = ix2 (i 0) k :=
  funext fun a => Fin.ext (by match a with | ⟨0, _⟩ => rfl | ⟨1, _⟩ => rfl)
theorem ridx20 (i : S50000x64.Idx) (k : Fin 64) : ridx_main_v20 i k = ix2 k (i 1) :=
  funext fun a => Fin.ext (by match a with | ⟨0, _⟩ => rfl | ⟨1, _⟩ => rfl)
theorem lidx34 (i : S50000x64.Idx) (k : Fin 64) : lidx_main_v34 i k = ix2 (i 0) k :=
  funext fun a => Fin.ext (by match a with | ⟨0, _⟩ => rfl | ⟨1, _⟩ => rfl)
theorem ridx34 (i : S50000x64.Idx) (k : Fin 64) : ridx_main_v34 i k = ix2 k (i 1) :=
  funext fun a => Fin.ext (by match a with | ⟨0, _⟩ => rfl | ⟨1, _⟩ => rfl)
theorem lidx39 (i : S50000x64.Idx) (k : Fin 64) : lidx_main_v39 i k = ix2 (i 0) k :=
  funext fun a => Fin.ext (by match a with | ⟨0, _⟩ => rfl | ⟨1, _⟩ => rfl)
theorem ridx39 (i : S50000x64.Idx) (k : Fin 64) : ridx_main_v39 i k = ix2 k (i 1) :=
  funext fun a => Fin.ext (by match a with | ⟨0, _⟩ => rfl | ⟨1, _⟩ => rfl)
theorem lidx53 (i : S50000x64.Idx) (k : Fin 64) : lidx_main_v53 i k = ix2 (i 0) k :=
  funext fun a => Fin.ext (by match a with | ⟨0, _⟩ => rfl | ⟨1, _⟩ => rfl)
theorem ridx53 (i : S50000x64.Idx) (k : Fin 64) : ridx_main_v53 i k = ix2 k (i 1) :=
  funext fun a => Fin.ext (by match a with | ⟨0, _⟩ => rfl | ⟨1, _⟩ => rfl)
theorem lidx58 (i : S50000x64.Idx) (k : Fin 64) : lidx_main_v58 i k = ix2 (i 0) k :=
  funext fun a => Fin.ext (by match a with | ⟨0, _⟩ => rfl | ⟨1, _⟩ => rfl)
theorem ridx58 (i : S50000x64.Idx) (k : Fin 64) : ridx_main_v58 i k = ix2 k (i 1) :=
  funext fun a => Fin.ext (by match a with | ⟨0, _⟩ => rfl | ⟨1, _⟩ => rfl)
/-- The bias spread over the rows is read at its column, whatever the row. -/
theorem idx1617 (i : S50000x64.Idx) : idx_main_v16 (idx_main_v17 i) = ix1 (i 1) :=
  funext fun a => Fin.ext (by match a with | ⟨0, _⟩ => rfl)
theorem idx3536 (i : S50000x64.Idx) : idx_main_v35 (idx_main_v36 i) = ix1 (i 1) :=
  funext fun a => Fin.ext (by match a with | ⟨0, _⟩ => rfl)
theorem idx5455 (i : S50000x64.Idx) : idx_main_v54 (idx_main_v55 i) = ix1 (i 1) :=
  funext fun a => Fin.ext (by match a with | ⟨0, _⟩ => rfl)

/-! ## The stages the network names: the aggregates and the transposes -/

section Stages

variable (x0 : (⟨S50000x64, .f32⟩ : BufTy).Contents (Elt Ideal)) (x1 : (⟨S2x800000, .i32⟩ : BufTy).Contents (Elt Ideal))
  (x2 : (⟨S64x64, .f32⟩ : BufTy).Contents (Elt Ideal)) (x3 : (⟨S64, .f32⟩ : BufTy).Contents (Elt Ideal)) (x4 x5 : (⟨S64x64, .f32⟩ : BufTy).Contents (Elt Ideal))
  (x6 : (⟨S64, .f32⟩ : BufTy).Contents (Elt Ideal)) (x7 x8 : (⟨S64x64, .f32⟩ : BufTy).Contents (Elt Ideal)) (x9 : (⟨S64, .f32⟩ : BufTy).Contents (Elt Ideal))
  (x10 : (⟨S64x64, .f32⟩ : BufTy).Contents (Elt Ideal))

/-- The first aggregate is the aggregation of the input features. -/
theorem agg1 : val_main_v13 (F := Ideal) x0 x1 = aggregate (srcOf x1) (dstOf x1) x0 := rfl
/-- The second is the aggregation of the first layer's result. -/
theorem agg2 : val_main_v32 (F := Ideal) x0 x1 x2 x3 x4 = aggregate (srcOf x1) (dstOf x1) (val_main_v22 (F := Ideal) x0 x1 x2 x3 x4) := rfl
/-- The third is the aggregation of the second layer's result. -/
theorem agg3 : val_main_v51 (F := Ideal) x0 x1 x2 x3 x4 x5 x6 x7
    = aggregate (srcOf x1) (dstOf x1) (val_main_v41 (F := Ideal) x0 x1 x2 x3 x4 x5 x6 x7) := rfl
theorem tr14 : val_main_v14 (F := Ideal) x2 = transposed x2 := rfl
theorem tr19 : val_main_v19 (F := Ideal) x4 = transposed x4 := rfl
theorem tr33 : val_main_v33 (F := Ideal) x5 = transposed x5 := rfl
theorem tr38 : val_main_v38 (F := Ideal) x7 = transposed x7 := rfl
theorem tr52 : val_main_v52 (F := Ideal) x8 = transposed x8 := rfl
theorem tr57 : val_main_v57 (F := Ideal) x10 = transposed x10 := rfl

/-! ## The layers -/

/-- The first layer's result is the hidden layer of the input features. -/
theorem layer1 : val_main_v22 (F := Ideal) x0 x1 x2 x3 x4 = hiddenOf x1 x0 x2 x3 x4 := by
  funext i
  rw [val_main_v22_apply, val_main_v21_apply, val_main_v18_apply, val_main_v15_apply, val_main_v20_apply, val_main_v17_apply,
    val_main_v16_apply, val_main_call0_v0_apply, val_main_call0_cst_apply]
  simp only [Ideal.maximumf_def, Ideal.addf_def, Ideal.ofBits_def, Ideal.ofBits_zero_f32, lidx15, ridx15, lidx20, ridx20, idx1617]
  rw [agg1, tr14, tr19]
  exact congrArg (fun y => max y 0) (affineLayer_bias_first (aggregate (srcOf x1) (dstOf x1) x0) x0 (transposed x2) (transposed x4) (biasOf x3) i)

/-- The second layer's result is the hidden layer of the first layer's result. -/
theorem layer2 : val_main_v41 (F := Ideal) x0 x1 x2 x3 x4 x5 x6 x7 = hiddenOf x1 (val_main_v22 (F := Ideal) x0 x1 x2 x3 x4) x5 x6 x7 := by
  funext i
  rw [val_main_v41_apply, val_main_v40_apply, val_main_v37_apply, val_main_v34_apply, val_main_v39_apply, val_main_v36_apply,
    val_main_v35_apply, val_main_call1_v0_apply, val_main_call1_cst_apply]
  simp only [Ideal.maximumf_def, Ideal.addf_def, Ideal.ofBits_def, Ideal.ofBits_zero_f32, lidx34, ridx34, lidx39, ridx39, idx3536]
  rw [agg2, tr33, tr38]
  exact congrArg (fun y => max y 0) (affineLayer_bias_first (aggregate (srcOf x1) (dstOf x1) (val_main_v22 (F := Ideal) x0 x1 x2 x3 x4))
    (val_main_v22 (F := Ideal) x0 x1 x2 x3 x4) (transposed x5) (transposed x7) (biasOf x6) i)

/-- The program's result is the affine layer of the second layer's result. -/
theorem layer3 : val_main_v59 (F := Ideal) x0 x1 x2 x3 x4 x5 x6 x7 x8 x9 x10
    = outputOf x1 (val_main_v41 (F := Ideal) x0 x1 x2 x3 x4 x5 x6 x7) x8 x9 x10 := by
  funext i
  rw [val_main_v59_apply, val_main_v56_apply, val_main_v53_apply, val_main_v58_apply, val_main_v55_apply, val_main_v54_apply]
  simp only [Ideal.addf_def, lidx53, ridx53, lidx58, ridx58, idx5455]
  rw [agg3, tr52, tr57]
  exact affineLayer_bias_first (aggregate (srcOf x1) (dstOf x1) (val_main_v41 (F := Ideal) x0 x1 x2 x3 x4 x5 x6 x7))
    (val_main_v41 (F := Ideal) x0 x1 x2 x3 x4 x5 x6 x7) (transposed x8) (transposed x10) (biasOf x9) i

/-- The reference's result is the network of its arguments. -/
theorem result : val_main_v59 (F := Ideal) x0 x1 x2 x3 x4 x5 x6 x7 x8 x9 x10 = network x0 x1 x2 x3 x4 x5 x6 x7 x8 x9 x10 := by
  rw [layer3, layer2, layer1]
  rfl

end Stages

end Cert.ReferenceIdeal.Layers

end
-- ==== Proof.lean ====
/-
  Three graph-convolution layers on 50000 nodes with 64 features, the dense part of each layer in a tiled kernel,
  against the same layers written with whole-array operations.

  Each layer aggregates the current node features over the edges (gather at the sources, add at the destinations) and
  combines the aggregate and the features through two 64 × 64 weight matrices and a bias; the first two layers take
  the maximum with zero. Both programs aggregate with the same host operations. They differ in the dense part: the
  kernel narrows its operands to bf16 (the identity over the extended reals), multiplies tile by tile — ten tiles of
  5000 rows — into zero accumulators, and adds the bias LAST, where the reference multiplies whole arrays and adds the
  bias BETWEEN the two products. A tile's rows are rows of the whole arrays and the tiles cover the result, so each
  region leaves the layer of the whole arrays it found; and the two groupings of the three-term sum agree because
  addition on the extended reals is commutative and associative, the infinities included. So both programs end at one
  function of the arguments, the network, and no finiteness of the inputs is used for the values.

  The two kernel programs' frames are the generated ones; the reference's frame is its generated run with the result
  dropped; the idealization rewrote nothing, so `preserves` is trivial.
-/
import proofs.«180834_j89790586290566_1_alg».proof.Defs
import proofs.«180834_j89790586290566_1_alg».proof.Proof.Gen.Kernel
import proofs.«180834_j89790586290566_1_alg».proof.Proof.Gen.Kernel.Skeleton
import proofs.«180834_j89790586290566_1_alg».proof.Proof.Gen.Kernel.Launch
import proofs.«180834_j89790586290566_1_alg».proof.Proof.Gen.Kernel.Points
import proofs.«180834_j89790586290566_1_alg».proof.Proof.Gen.Kernel.Frame
import proofs.«180834_j89790586290566_1_alg».proof.Proof.Gen.KernelIdeal
import proofs.«180834_j89790586290566_1_alg».proof.Proof.Gen.KernelIdeal.Skeleton
import proofs.«180834_j89790586290566_1_alg».proof.Proof.Gen.KernelIdeal.Launch
import proofs.«180834_j89790586290566_1_alg».proof.Proof.Gen.KernelIdeal.Points
import proofs.«180834_j89790586290566_1_alg».proof.Proof.Gen.KernelIdeal.Frame
import proofs.«180834_j89790586290566_1_alg».proof.Proof.Gen.ReferenceIdeal
import proofs.«180834_j89790586290566_1_alg».proof.Proof.Gen.ReferenceIdeal.Run
import proofs.«180834_j89790586290566_1_alg».proof.Proof.Gen.ReferenceIdeal.Read
import proofs.«180834_j89790586290566_1_alg».proof.Proof.Gen.Pre_finite_inputs
import proofs.«180834_j89790586290566_1_alg».proof.Proof.KernelRun
import proofs.«180834_j89790586290566_1_alg».proof.Proof.Boundaries
import proofs.«180834_j89790586290566_1_alg».proof.Proof.RefLayers
import Idealize.ShloMosaic.Adequacy
import Idealize.ShloMosaic.Init

noncomputable section

namespace Cert.Proof

open Idealize.ShloMosaic Idealize.SL.Sem

/-- The word-level kernel program runs and keeps its arguments: the generated frame. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference runs and keeps its arguments: its run, the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end at the network of the arguments: the kernel program
    region by region, the reference stage by stage. -/
theorem algebraic : Cert.algebraic_KernelIdeal_ReferenceIdeal := by
  intro m ρ m' ρ' _ hagree
  refine ⟨fun c => Cert.KernelIdeal.Network.network (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · exact (θ_run Cert.KernelIdeal.defs _ _).mono
      (fun _ h c => ⟨(h c).1.trans (Cert.KernelIdeal.Boundaries.result m ρ c), (h c).2⟩)
      (Cert.KernelIdeal.ValueRun.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10⟩ := hagree c
    rw [Cert.ReferenceIdeal.Read.val_main_v59_eq, Cert.ReferenceIdeal.Layers.result, h0, h1, h2, h3, h4, h5, h6, h7, h8, h9, h10]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
